-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1000 : Shape := ⟨2, ![100000, 1000]⟩
abbrev S1000x500 : Shape := ⟨2, ![1000, 500]⟩
abbrev S256 : Shape := ⟨1, ![256]⟩
abbrev S256x1024 : Shape := ⟨2, ![256, 1024]⟩
abbrev S_ : Shape := ⟨0, ![]⟩

class Facts : Prop where
  bcast_S_S100000x1000 : S_.BroadcastsInDim S100000x1000 (![] : Fin 0 → Fin S100000x1000.rank)
  reducesTo_S100000x1000_S_d0_1 : S100000x1000.ReducesTo [0, 1] S_
  h_S_ : 0 < S_.numel
  bcast_S_S1000x500 : S_.BroadcastsInDim S1000x500 (![] : Fin 0 → Fin S1000x500.rank)
  reducesTo_S1000x500_S_d0_1 : S1000x500.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg3 : IVec S256 32) (main_arg4 : IVec S256x1024 32) (main_v15 : IVec S_ 1) (main_c_5 : IVec S_ 32) : IVec S_ 1 :=
  let main_v16 : IVec S256 32 := broadcastInDim S256 ![] bcast_S_S256 main_c_5
  let main_v17 : IVec S256 1 := cmpi .sge main_arg3 main_v16
  let main_c_6 : IVec S_ 32 := constantI S_ 32 1000#32
  let main_v18 : IVec S256 32 := broadcastInDim S256 ![] bcast_S_S256 main_c_6
  let main_v19 : IVec S256 1 := cmpi .slt main_arg3 main_v18
  let main_v20 : IVec S256 1 := andi main_v17 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v15 main_v21
  let main_c_8 : IVec S_ 32 := constantI S_ 32 4294867296#32
  let main_v23 : IVec S256x1024 32 := broadcastInDim S256x1024 ![] bcast_S_S256x1024 main_c_8
  let main_v24 : IVec S256x1024 1 := cmpi .sge main_arg4 main_v23
  let main_c_9 : IVec S_ 32 := constantI S_ 32 100000#32
  let main_v25 : IVec S256x1024 32 := broadcastInDim S256x1024 ![] bcast_S_S256x1024 main_c_9
  let main_v26 : IVec S256x1024 1 := cmpi .slt main_arg4 main_v25
  let main_v27 : IVec S256x1024 1 := andi main_v24 main_v26
  let main_c_10 : IVec S_ 1 := constantI S_ 1 1#1
  let main_v28 : IVec S_ 1 := (fun x v => Host.reduce IntOp.andi x v reducesTo_S256x1024_S_d0_1 h_S_) main_v27 main_c_10
  let main_v29 : IVec S_ 1 := andi main_v22 main_v28
  main_v29

def fn {F : FTy → Type} [FloatOps F] (main_arg0 : FVec F S100000x1000 .f32) (main_arg1 : FVec F S1000x500 .f32) (main_arg2 : IVec S256 32) (main_arg3 : IVec S256 32) (main_arg4 : IVec S256x1024 32) : IVec S_ 1 :=
  let main_v0 : FVec F S100000x1000 .f32 := Host.absf main_arg0
  let main_cst : FVec F S_ .f32 := constant S_ .f32 0x7F800000#32
  let main_v1 : FVec F S100000x1000 .f32 := broadcastInDim S100000x1000 ![] bcast_S_S100000x1000 main_cst
  let main_v2 : IVec S100000x1000 1 := cmpf .olt main_v0 main_v1
  let main_c : IVec S_ 1 := constantI S_ 1 1#1
  let main_v3 : IVec S_ 1 := (fun x v => Host.reduce IntOp.andi x v reducesTo_S100000x1000_S_d0_1 h_S_) main_v2 main_c
  let main_v4 : FVec F S1000x500 .f32 := Host.absf main_arg1
  let main_cst_0 : FVec F S_ .f32 := constant S_ .f32 0x7F800000#32
  let main_v5 : FVec F S1000x500 .f32 := broadcastInDim S1000x500 ![] bcast_S_S1000x500 main_cst_0
  let main_v6 : IVec S1000x500 1 := cmpf .olt main_v4 main_v5
  let main_c_1 : IVec S_ 1 := constantI S_ 1 1#1
  let main_v7 : IVec S_ 1 := (fun x v => Host.reduce IntOp.andi x v reducesTo_S1000x500_S_d0_1 h_S_) main_v6 main_c_1
  let main_v8 : IVec S_ 1 := andi main_v3 main_v7
  let main_c_2 : IVec S_ 32 := constantI S_ 32 4294867296#32
  let main_v9 : IVec S256 32 := broadcastInDim S256 ![] bcast_S_S256 main_c_2
  let main_v10 : IVec S256 1 := cmpi .sge main_arg2 main_v9
  let main_c_3 : IVec S_ 32 := constantI S_ 32 100000#32
  let main_v11 : IVec S256 32 := broadcastInDim S256 ![] bcast_S_S256 main_c_3
  let main_v12 : IVec S256 1 := cmpi .slt main_arg2 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  let main_c_5 : IVec S_ 32 := constantI S_ 32 4294966296#32
  fn_part1 (F := F) main_arg3 main_arg4 main_v15 main_c_5
-- ==== Kernel.lean ====
abbrev S100000x1000 : Shape := ⟨2, ![100000, 1000]⟩
abbrev S1000x500 : Shape := ⟨2, ![1000, 500]⟩
abbrev S256 : Shape := ⟨1, ![256]⟩
abbrev S256x1024 : Shape := ⟨2, ![256, 1024]⟩
abbrev S_ : Shape := ⟨0, ![]⟩
abbrev S256x1 : Shape := ⟨2, ![256, 1]⟩
abbrev S1 : Shape := ⟨1, ![1]⟩
abbrev S1x1 : Shape := ⟨2, ![1, 1]⟩
abbrev S256x1000 : Shape := ⟨2, ![256, 1000]⟩
abbrev S256x500 : Shape := ⟨2, ![256, 500]⟩
abbrev S256x1024x1 : Shape := ⟨3, ![256, 1024, 1]⟩
abbrev S1x1x1 : Shape := ⟨3, ![1, 1, 1]⟩
abbrev S256x1024x1000 : Shape := ⟨3, ![256, 1024, 1000]⟩
abbrev S256x1024x500 : Shape := ⟨3, ![256, 1024, 500]⟩
abbrev S8x500 : Shape := ⟨2, ![8, 500]⟩
abbrev S8x256x500 : Shape := ⟨3, ![8, 256, 500]⟩
abbrev S8x256 : Shape := ⟨2, ![8, 256]⟩
abbrev S8x1x500 : Shape := ⟨3, ![8, 1, 500]⟩

abbrev nBuf : Space → Nat
  | .hbm => 90
  | .vmem => 10
  | .smem => 0
  | _ => 0

abbrev bufTy : (tb : Table) → Fin (tcTables nBuf tb) → BufTy
  | .hbm, ⟨0, _⟩ => ⟨S100000x1000, .f32⟩
  | .hbm, ⟨1, _⟩ => ⟨S1000x500, .f32⟩
  | .hbm, ⟨2, _⟩ => ⟨S256, .i32⟩
  | .hbm, ⟨3, _⟩ => ⟨S256, .i32⟩
  | .hbm, ⟨4, _⟩ => ⟨S256x1024, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S1, .i32⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S1x1, .i32⟩
  | .hbm, ⟨18, _⟩ => ⟨S256x1, .i32⟩
  | .hbm, ⟨19, _⟩ => ⟨S256x1, .i1⟩
  | .hbm, ⟨20, _⟩ => ⟨S256x1, .i1⟩
  | .hbm, ⟨21, _⟩ => ⟨S_, .i1⟩
  | .hbm, ⟨22, _⟩ => ⟨S256, .i1⟩
  | .hbm, ⟨23, _⟩ => ⟨S256x1000, .f32⟩
  | .hbm, ⟨24, _⟩ => ⟨S256x1000, .i1⟩
  | .hbm, ⟨25, _⟩ => ⟨S_, .f32⟩
  | .hbm, ⟨26, _⟩ => ⟨S256x1000, .f32⟩
  | .hbm, ⟨27, _⟩ => ⟨S256x1000, .f32⟩
  | .hbm, ⟨28, _⟩ => ⟨S_, .i32⟩
  | .hbm, ⟨29, _⟩ => ⟨S256, .i32⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S1, .i32⟩
  | .hbm, ⟨37, _⟩ => ⟨S_, .i32⟩
  | .hbm, ⟨38, _⟩ => ⟨S256x1, .i32⟩
  | .hbm, ⟨39, _⟩ => ⟨S256x1, .i1⟩
  | .hbm, ⟨40, _⟩ => ⟨S1x1, .i32⟩
  | .hbm, ⟨41, _⟩ => ⟨S256x1, .i32⟩
  | .hbm, ⟨42, _⟩ => ⟨S256x1, .i1⟩
  | .hbm, ⟨43, _⟩ => ⟨S256x1, .i1⟩
  | .hbm, ⟨44, _⟩ => ⟨S_, .i1⟩
  | .hbm, ⟨45, _⟩ => ⟨S256, .i1⟩
  | .hbm, ⟨46, _⟩ => ⟨S256x500, .f32⟩
  | .hbm, ⟨47, _⟩ => ⟨S256x500, .i1⟩
  | .hbm, ⟨48, _⟩ => ⟨S_, .f32⟩
  | .hbm, ⟨49, _⟩ => ⟨S256x500, .f32⟩
  | .hbm, ⟨50, _⟩ => ⟨S256x500, .f32⟩
  | .hbm, ⟨51, _⟩ => ⟨S_, .f32⟩
  | .hbm, ⟨52, _⟩ => ⟨S256x500, .f32⟩
  | .hbm, ⟨53, _⟩ => ⟨S256x500, .f32⟩
  | .hbm, ⟨54, _⟩ => ⟨S256x500, .f32⟩
  | .hbm, ⟨55, _⟩ => ⟨S256x500, .f32⟩
  | .hbm, ⟨56, _⟩ => ⟨S256x500, .f32⟩
  | .hbm, ⟨57, _⟩ => ⟨S256x500, .f32⟩
  | .hbm, ⟨58, _⟩ => ⟨S256x500, .f32⟩
  | .hbm, ⟨59, _⟩ => ⟨S256x500, .f32⟩
  | .hbm, ⟨60, _⟩ => ⟨S256x500, .f32⟩
  | .hbm, ⟨61, _⟩ => ⟨S256x500, .f32⟩
  | .hbm, ⟨62, _⟩ => ⟨S256x500, .f32⟩
  | .hbm, ⟨63, _⟩ => ⟨S256x500, .f32⟩
  | .hbm, ⟨64, _⟩ => ⟨S_, .i32⟩
  | .hbm, ⟨65, _⟩ => ⟨S256x1024, .i32⟩
  | .hbm, ⟨66, _⟩ => ⟨S256x1024, .i1⟩
  | .hbm, ⟨67, _⟩ => ⟨S_, .i32⟩
  | .hbm, ⟨68, _⟩ => ⟨S256x1024, .i32⟩
  | .hbm, ⟨69, _⟩ => ⟨S256x1024, .i32⟩
  | .hbm, ⟨70, _⟩ => ⟨S256x1024, .i32⟩
  | .hbm, ⟨71, _⟩ => ⟨S256x1024x1, .i32⟩
  | .hbm, ⟨72, _⟩ => ⟨S1, .i32⟩
  | .hbm, ⟨73, _⟩ => ⟨S_, .i32⟩
  | .hbm, ⟨74, _⟩ => ⟨S256x1024x1, .i32⟩
  | .hbm, ⟨75, _⟩ => ⟨S256x1024x1, .i1⟩
  | .hbm, ⟨76, _⟩ => ⟨S1x1x1, .i32⟩
  | .hbm, ⟨77, _⟩ => ⟨S256x1024x1, .i32⟩
  | .hbm, ⟨78, _⟩ => ⟨S256x1024x1, .i1⟩
  | .hbm, ⟨79, _⟩ => ⟨S256x1024x1, .i1⟩
  | .hbm, ⟨80, _⟩ => ⟨S_, .i1⟩
  | .hbm, ⟨81, _⟩ => ⟨S256x1024, .i1⟩
  | .hbm, ⟨82, _⟩ => ⟨S256x1024x1000, .f32⟩
  | .hbm, ⟨83, _⟩ => ⟨S256x1024x1000, .i1⟩
  | .hbm, ⟨84, _⟩ => ⟨S_, .f32⟩
  | .hbm, ⟨85, _⟩ => ⟨S256x1024x1000, .f32⟩
  | .hbm, ⟨86, _⟩ => ⟨S256x1024x1000, .f32⟩
  | .hbm, ⟨87, _⟩ => ⟨S256x1024x500, .f32⟩
  | .hbm, ⟨88, _⟩ => ⟨S256x1024x500, .f32⟩
  | .hbm, ⟨89, _⟩ => ⟨S256x1024, .f32⟩
  | .local _ .vmem, ⟨0, _⟩ => ⟨S8x500, .f32⟩
  | .local _ .vmem, ⟨1, _⟩ => ⟨S8x500, .f32⟩
  | .local _ .vmem, ⟨2, _⟩ => ⟨S8x500, .f32⟩
  | .local _ .vmem, ⟨3, _⟩ => ⟨S8x500, .f32⟩
  | .local _ .vmem, ⟨4, _⟩ => ⟨S8x256x500, .f32⟩
  | .local _ .vmem, ⟨5, _⟩ => ⟨S8x256x500, .f32⟩
  | .local _ .vmem, ⟨6, _⟩ => ⟨S8x256x500, .f32⟩
  | .local _ .vmem, ⟨7, _⟩ => ⟨S8x256x500, .f32⟩
  | .local _ .vmem, ⟨8, _⟩ => ⟨S8x256, .f32⟩
  | .local _ .vmem, ⟨9, _⟩ => ⟨S8x256, .f32⟩
  | _, _ => ⟨S100000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_cst : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S256x1000_0 : S256.BroadcastsInDim S256x1000 (![0] : Fin 1 → Fin S256x1000.rank)
  bcast_S_S256x1000 : S_.BroadcastsInDim S256x1000 (![] : Fin 0 → Fin S256x1000.rank)
  bcast_S256_S256x500_0 : S256.BroadcastsInDim S256x500 (![0] : Fin 1 → Fin S256x500.rank)
  bcast_S_S256x500 : S_.BroadcastsInDim S256x500 (![] : Fin 0 → Fin S256x500.rank)
  slices_S256x1000_S256x500_0_0 : S256x1000.Slices ![0, 0] S256x500
  slices_S256x1000_S256x500_0_500 : S256x1000.Slices ![0, 500] S256x500
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  bcast_S_S256x1024x1 : S_.BroadcastsInDim S256x1024x1 (![] : Fin 0 → Fin S256x1024x1.rank)
  bcast_S1_S1x1x1_2 : S1.BroadcastsInDim S1x1x1 (![2] : Fin 1 → Fin S1x1x1.rank)
  bcast_S1x1x1_S256x1024x1_0_1_2 : S1x1x1.BroadcastsInDim S256x1024x1 (![0, 1, 2] : Fin 3 → Fin S256x1024x1.rank)
  reducesTo_S256x1024x1_S256x1024_d2 : S256x1024x1.ReducesTo [2] S256x1024
  bcast_S256x1024_S256x1024x1000_0_1 : S256x1024.BroadcastsInDim S256x1024x1000 (![0, 1] : Fin 2 → Fin S256x1024x1000.rank)
  bcast_S_S256x1024x1000 : S_.BroadcastsInDim S256x1024x1000 (![] : Fin 0 → Fin S256x1024x1000.rank)
  slices_S256x1024x1000_S256x1024x500_0_0_0 : S256x1024x1000.Slices ![0, 0, 0] S256x1024x500
  slices_S256x1024x1000_S256x1024x500_0_0_500 : S256x1024x1000.Slices ![0, 0, 500] S256x1024x500
  inb_S8x500_S8x500_0_0 : ∀ a, (![0, 0] : Fin 2 → Nat) a + S8x500.size a ≤ S8x500.size a
  h_S8x500 : 0 < S8x500.numel
  shapeCasts_S8x500_S8x500 : S8x500.ShapeCasts S8x500
  inb_S8x256x500_S8x256x500_0_0_0 : ∀ a, (![0, 0, 0] : Fin 3 → Nat) a + S8x256x500.size a ≤ S8x256x500.size a
  h_S8x256x500 : 0 < S8x256x500.numel
  shapeCasts_S8x256x500_S8x256x500 : S8x256x500.ShapeCasts S8x256x500
  shapeCasts_S8x500_S8x1x500 : S8x500.ShapeCasts S8x1x500
  broadcasts_S8x1x500_S8x256x500 : S8x1x500.Broadcasts S8x256x500
  reduces_S8x256x500_S8x256 : S8x256x500.Reduces [2] S8x256
  inb_S8x256_S8x256_0_0 : ∀ a, (![0, 0] : Fin 2 → Nat) a + S8x256.size a ≤ S8x256.size a
  h_S8x256 : 0 < S8x256.numel
  gather_S100000x1000_S256x1_S256x1000_1_0_n_n_0_1_11000_wf : GatherDims.WF S100000x1000 S256x1 S256x1000 [1] [0] [] [0] [] 1 ![1, 1000]
  gather_S1000x500_S256x1_S256x500_1_0_n_n_0_1_1500_wf : GatherDims.WF S1000x500 S256x1 S256x500 [1] [0] [] [0] [] 1 ![1, 500]
  gather_S100000x1000_S256x1024x1_S256x1024x1000_2_0_n_n_0_2_11000_wf : GatherDims.WF S100000x1000 S256x1024x1 S256x1024x1000 [2] [0] [] [0] [] 2 ![1, 1000]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x500.size a ≤ S256x500.size a
  hwx0_0 : ∀ i : grid0.Coords, EltTy.bits .f32 = 32 ∨ (Rect.block (s := S256x500) S8x500.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x500.size a ≤ S256x500.size a
  hwx0_1 : ∀ i : grid0.Coords, EltTy.bits .f32 = 32 ∨ (Rect.block (s := S256x500) S8x500.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x500.size a ≤ S256x1024x500.size a
  hwx0_2 : ∀ i : grid0.Coords, EltTy.bits .f32 = 32 ∨ (Rect.block (s := S256x1024x500) S8x256x500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x500.size a ≤ S256x1024x500.size a
  hwx0_3 : ∀ i : grid0.Coords, EltTy.bits .f32 = 32 ∨ (Rect.block (s := S256x1024x500) S8x256x500.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S256x1024.size a
  hwx0_4 : ∀ i : grid0.Coords, EltTy.bits .f32 = 32 ∨ (Rect.block (s := S256x1024) S8x256.size (cc0_transform_4 i) (hinb0_4 i)).WholeWords (EltTy.packing .f32)

variable [Facts₀]

def gather_S100000x1000_S256x1_S256x1000_1_0_n_n_0_1_11000 : GatherDims S100000x1000 S256x1 S256x1000 where
  offsetDims := [1]
  collapsedSliceDims := [0]
  operandBatchingDims := []
  startIndicesBatchingDims := []
  startIndexMap := [0]
  indexVectorDim := 1
  sliceSizes := ![1, 1000]
  wf := gather_S100000x1000_S256x1_S256x1000_1_0_n_n_0_1_11000_wf
def gather_S1000x500_S256x1_S256x500_1_0_n_n_0_1_1500 : GatherDims S1000x500 S256x1 S256x500 where
  offsetDims := [1]
  collapsedSliceDims := [0]
  operandBatchingDims := []
  startIndicesBatchingDims := []
  startIndexMap := [0]
  indexVectorDim := 1
  sliceSizes := ![1, 500]
  wf := gather_S1000x500_S256x1_S256x500_1_0_n_n_0_1_1500_wf
def gather_S100000x1000_S256x1024x1_S256x1024x1000_2_0_n_n_0_2_11000 : GatherDims S100000x1000 S256x1024x1 S256x1024x1000 where
  offsetDims := [2]
  collapsedSliceDims := [0]
  operandBatchingDims := []
  startIndicesBatchingDims := []
  startIndexMap := [0]
  indexVectorDim := 2
  sliceSizes := ![1, 1000]
  wf := gather_S100000x1000_S256x1024x1_S256x1024x1000_2_0_n_n_0_2_11000_wf

abbrev win0_0 : Pipeline.Window sig grid0 :=
  Pipeline.Window.ofSpec (Memref.whole main_v10) S8x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8x500.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8x256x500.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S8x256x500.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x1000 : Shape := ⟨2, ![100000, 1000]⟩
abbrev S1000x500 : Shape := ⟨2, ![1000, 500]⟩
abbrev S256 : Shape := ⟨1, ![256]⟩
abbrev S256x1024 : Shape := ⟨2, ![256, 1024]⟩
abbrev S_ : Shape := ⟨0, ![]⟩
abbrev S256x1 : Shape := ⟨2, ![256, 1]⟩
abbrev S256x500 : Shape := ⟨2, ![256, 500]⟩
abbrev S256x1000 : Shape := ⟨2, ![256, 1000]⟩
abbrev S256x1024x1 : Shape := ⟨3, ![256, 1024, 1]⟩
abbrev S256x1024x1000 : Shape := ⟨3, ![256, 1024, 1000]⟩
abbrev S256x1024x500 : Shape := ⟨3, ![256, 1024, 500]⟩
abbrev S256x1x500 : Shape := ⟨3, ![256, 1, 500]⟩

abbrev nBuf : Space → Nat
  | .hbm => 62
  | .vmem => 0
  | .smem => 0
  | _ => 0

abbrev bufTy : (tb : Table) → Fin (tcTables nBuf tb) → BufTy
  | .hbm, ⟨0, _⟩ => ⟨S100000x1000, .f32⟩
  | .hbm, ⟨1, _⟩ => ⟨S1000x500, .f32⟩
  | .hbm, ⟨2, _⟩ => ⟨S256, .i32⟩
  | .hbm, ⟨3, _⟩ => ⟨S256, .i32⟩
  | .hbm, ⟨4, _⟩ => ⟨S256x1024, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S256x500, .f32⟩
  | .hbm, ⟨14, _⟩ => ⟨S_, .f32⟩
  | .hbm, ⟨15, _⟩ => ⟨S256x500, .f32⟩
  | .hbm, ⟨16, _⟩ => ⟨S256x500, .f32⟩
  | .hbm, ⟨17, _⟩ => ⟨S256x500, .f32⟩
  | .hbm, ⟨18, _⟩ => ⟨S256x500, .f32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256x1000, .f32⟩
  | .hbm, ⟨28, _⟩ => ⟨S256x500, .f32⟩
  | .hbm, ⟨29, _⟩ => ⟨S256x500, .f32⟩
  | .hbm, ⟨30, _⟩ => ⟨S256x500, .f32⟩
  | .hbm, ⟨31, _⟩ => ⟨S256x500, .f32⟩
  | .hbm, ⟨32, _⟩ => ⟨S256x500, .f32⟩
  | .hbm, ⟨33, _⟩ => ⟨S256x500, .f32⟩
  | .hbm, ⟨34, _⟩ => ⟨S256x500, .f32⟩
  | .hbm, ⟨35, _⟩ => ⟨S256x500, .f32⟩
  | .hbm, ⟨36, _⟩ => ⟨S_, .i32⟩
  | .hbm, ⟨37, _⟩ => ⟨S256x1024, .i32⟩
  | .hbm, ⟨38, _⟩ => ⟨S256x1024, .i1⟩
  | .hbm, ⟨39, _⟩ => ⟨S_, .i32⟩
  | .hbm, ⟨40, _⟩ => ⟨S256x1024, .i32⟩
  | .hbm, ⟨41, _⟩ => ⟨S256x1024, .i32⟩
  | .hbm, ⟨42, _⟩ => ⟨S256x1024, .i32⟩
  | .hbm, ⟨43, _⟩ => ⟨S256x1024x1, .i32⟩
  | .hbm, ⟨44, _⟩ => ⟨S256x1024x1000, .f32⟩
  | .hbm, ⟨45, _⟩ => ⟨S256x1024x500, .f32⟩
  | .hbm, ⟨46, _⟩ => ⟨S256x1024x500, .f32⟩
  | .hbm, ⟨47, _⟩ => ⟨S256x1x500, .f32⟩
  | .hbm, ⟨48, _⟩ => ⟨S256x1024x500, .f32⟩
  | .hbm, ⟨49, _⟩ => ⟨S256x1024x500, .f32⟩
  | .hbm, ⟨50, _⟩ => ⟨S256x1x500, .f32⟩
  | .hbm, ⟨51, _⟩ => ⟨S256x1024x500, .f32⟩
  | .hbm, ⟨52, _⟩ => ⟨S256x1024x500, .f32⟩
  | .hbm, ⟨53, _⟩ => ⟨S256x1024x500, .f32⟩
  | .hbm, ⟨54, _⟩ => ⟨S256x1024x500, .f32⟩
  | .hbm, ⟨55, _⟩ => ⟨S256x1024x500, .f32⟩
  | .hbm, ⟨56, _⟩ => ⟨S256x1024x500, .f32⟩
  | .hbm, ⟨57, _⟩ => ⟨S_, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | _, _ => ⟨S100000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x500 : S_.BroadcastsInDim S256x500 (![] : Fin 0 → Fin S256x500.rank)
  slices_S256x1000_S256x500_0_0 : S256x1000.Slices ![0, 0] S256x500
  slices_S256x1000_S256x500_0_500 : S256x1000.Slices ![0, 500] S256x500
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  slices_S256x1024x1000_S256x1024x500_0_0_0 : S256x1024x1000.Slices ![0, 0, 0] S256x1024x500
  slices_S256x1024x1000_S256x1024x500_0_0_500 : S256x1024x1000.Slices ![0, 0, 500] S256x1024x500
  bcast_S256x500_S256x1x500_0_2 : S256x500.BroadcastsInDim S256x1x500 (![0, 2] : Fin 2 → Fin S256x1x500.rank)
  bcast_S256x1x500_S256x1024x500_0_1_2 : S256x1x500.BroadcastsInDim S256x1024x500 (![0, 1, 2] : Fin 3 → Fin S256x1024x500.rank)
  reducesTo_S256x1024x500_S256x1024_d2 : S256x1024x500.ReducesTo [2] S256x1024
  h_S_ : 0 < S_.numel
  gather_S1000x500_S256x1_S256x500_1_0_n_n_0_1_1500_wf : GatherDims.WF S1000x500 S256x1 S256x500 [1] [0] [] [0] [] 1 ![1, 500]
  gather_S100000x1000_S256x1_S256x1000_1_0_n_n_0_1_11000_wf : GatherDims.WF S100000x1000 S256x1 S256x1000 [1] [0] [] [0] [] 1 ![1, 1000]
  gather_S100000x1000_S256x1024x1_S256x1024x1000_2_0_n_n_0_2_11000_wf : GatherDims.WF S100000x1000 S256x1024x1 S256x1024x1000 [2] [0] [] [0] [] 2 ![1, 1000]

variable [Facts₀]

def gather_S1000x500_S256x1_S256x500_1_0_n_n_0_1_1500 : GatherDims S1000x500 S256x1 S256x500 where
  offsetDims := [1]
  collapsedSliceDims := [0]
  operandBatchingDims := []
  startIndicesBatchingDims := []
  startIndexMap := [0]
  indexVectorDim := 1
  sliceSizes := ![1, 500]
  wf := gather_S1000x500_S256x1_S256x500_1_0_n_n_0_1_1500_wf
def gather_S100000x1000_S256x1_S256x1000_1_0_n_n_0_1_11000 : GatherDims S100000x1000 S256x1 S256x1000 where
  offsetDims := [1]
  collapsedSliceDims := [0]
  operandBatchingDims := []
  startIndicesBatchingDims := []
  startIndexMap := [0]
  indexVectorDim := 1
  sliceSizes := ![1, 1000]
  wf := gather_S100000x1000_S256x1_S256x1000_1_0_n_n_0_1_11000_wf
def gather_S100000x1000_S256x1024x1_S256x1024x1000_2_0_n_n_0_2_11000 : GatherDims S100000x1000 S256x1024x1 S256x1024x1000 where
  offsetDims := [2]
  collapsedSliceDims := [0]
  operandBatchingDims := []
  startIndicesBatchingDims := []
  startIndexMap := [0]
  indexVectorDim := 2
  sliceSizes := ![1, 1000]
  wf := gather_S100000x1000_S256x1024x1_S256x1024x1000_2_0_n_n_0_2_11000_wf

class Facts : Prop extends Facts₀ where

variable [Facts]
-- ==== Proof.LibTRef.lean ====
/-
  A value carried to a typed reference's buffer type and back is the value. A host operation of an inlined function is
  stated through typed references: its function takes the operands from their buffers' types to the values' types and
  returns the result the other way, each a transport along the reference's type equation. Composed, the two transports
  cancel, whatever the signature and the reference.
-/
import Idealize.ShloMosaic.Lib.StableHlo

noncomputable section

namespace Cert.LibTRef

open Idealize.ShloMosaic Idealize.ShloMosaic.StableHlo

/-- The round trip through a typed reference's buffer type is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.LibTRef

end
-- ==== Proof.HostSide.lean ====
/-
  What the kernel's @main hands its one pallas_call. Before the call the host code looks up three groups of rows,
  each by the take-with-fill idiom: the index is wrapped (a negative index counts from the end), the row at the wrapped
  index is gathered, and the row is kept where the wrapped index lies in `[0, N - 1]` and replaced by the fill value
  where it does not. From the head rows `H` (real part in columns 0..499, imaginary part in columns 500..999) and the
  relation rows `Rr` it forms the rotated head: with the phase `φ = Rr · c`,
      re = H_re · cos φ − H_im · sin φ,    im = H_re · sin φ + H_im · cos φ,
  and from the tail rows `T` their two halves. These four arrays are what the call's four input windows stage.
  Here each of them is read off the region-entry contents as that composition of the argument arrays. (The lookups
  are module-local functions whose operations carry their values through typed references; a value carried to a
  reference's buffer type and back is the value, and at a literal reference the carrying is the identity.)
-/
import proofs.«418616_j70866960384070_1_alg».proof.Proof.Gen.KernelIdeal.Frame
import Idealize.ShloMosaic.Lib.StableHlo.Run
import proofs.«418616_j70866960384070_1_alg».proof.Proof.LibTRef

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-! ## The three lookups -/

/-- The head indices wrapped into the entity table's 100000 rows. -/
def wrapH (h : IVec S256 32) : IVec S256 32 :=
  select (cmpi .slt h (broadcastInDim S256 ![] bcast_S_S256 (constantI S_ 32 0#32)))
    (addi h (broadcastInDim S256 ![] bcast_S_S256 (constantI S_ 32 100000#32))) h
/-- … as the column of start indices the gather takes. -/
def colH (h : IVec S256 32) : IVec S256x1 32 := broadcastInDim S256x1 ![0] bcast_S256_S256x1_0 (wrapH h)
/-- Which head lookups are in range: `0 ≤ wrapped ≤ 99999`. -/
def maskH (h : IVec S256 32) : IVec S256 1 :=
  Host.reduce IntOp.andi
    (andi (cmpi .sge (colH h) (broadcastInDim S256x1 ![] bcast_S_S256x1 (constantI S_ 32 0#32)))
      (cmpi .sle (colH h) (broadcastInDim S256x1 ![0, 1] bcast_S1x1_S256x1_0_1
        (broadcastInDim S1x1 ![1] bcast_S1_S1x1_1 (constantI S1 32 99999#32)))))
    (constantI S_ 1 1#1) reducesTo_S256x1_S256_d1 h_S_
/-- The gathered head rows. -/
def rowsH (E : FVec F S100000x1000 .f32) (h : IVec S256 32) : FVec F S256x1000 .f32 :=
  Host.gather gather_S100000x1000_S256x1_S256x1000_1_0_n_n_0_1_11000 E (colH h)
/-- The head rows, filled where out of range. -/
def takeH (E : FVec F S100000x1000 .f32) (h : IVec S256 32) : FVec F S256x1000 .f32 :=
  select (broadcastInDim S256x1000 ![0] bcast_S256_S256x1000_0 (maskH h)) (rowsH E h)
    (broadcastInDim S256x1000 ![] bcast_S_S256x1000 (constant S_ .f32 0x7FC00000#32))

/-- The relation indices wrapped into the relation table's 1000 rows. -/
def wrapR (r : IVec S256 32) : IVec S256 32 :=
  select (cmpi .slt r (broadcastInDim S256 ![] bcast_S_S256 (constantI S_ 32 0#32)))
    (addi r (broadcastInDim S256 ![] bcast_S_S256 (constantI S_ 32 1000#32))) r
def colR (r : IVec S256 32) : IVec S256x1 32 := broadcastInDim S256x1 ![0] bcast_S256_S256x1_0 (wrapR r)
/-- Which relation lookups are in range: `0 ≤ wrapped ≤ 999`. -/
def maskR (r : IVec S256 32) : IVec S256 1 :=
  Host.reduce IntOp.andi
    (andi (cmpi .sge (colR r) (broadcastInDim S256x1 ![] bcast_S_S256x1 (constantI S_ 32 0#32)))
      (cmpi .sle (colR r) (broadcastInDim S256x1 ![0, 1] bcast_S1x1_S256x1_0_1
        (broadcastInDim S1x1 ![1] bcast_S1_S1x1_1 (constantI S1 32 999#32)))))
    (constantI S_ 1 1#1) reducesTo_S256x1_S256_d1 h_S_
def rowsR (R : FVec F S1000x500 .f32) (r : IVec S256 32) : FVec F S256x500 .f32 :=
  Host.gather gather_S1000x500_S256x1_S256x500_1_0_n_n_0_1_1500 R (colR r)
def takeR (R : FVec F S1000x500 .f32) (r : IVec S256 32) : FVec F S256x500 .f32 :=
  select (broadcastInDim S256x500 ![0] bcast_S256_S256x500_0 (maskR r)) (rowsR R r)
    (broadcastInDim S256x500 ![] bcast_S_S256x500 (constant S_ .f32 0x7FC00000#32))

/-- The candidate-tail indices wrapped into the entity table's 100000 rows. -/
def wrapT (t : IVec S256x1024 32) : IVec S256x1024 32 :=
  select (cmpi .slt t (broadcastInDim S256x1024 ![] bcast_S_S256x1024 (constantI S_ 32 0#32)))
    (addi t (broadcastInDim S256x1024 ![] bcast_S_S256x1024 (constantI S_ 32 100000#32))) t
def colT (t : IVec S256x1024 32) : IVec S256x1024x1 32 :=
  broadcastInDim S256x1024x1 ![0, 1] bcast_S256x1024_S256x1024x1_0_1 (wrapT t)
/-- Which tail lookups are in range: `0 ≤ wrapped ≤ 99999`. -/
def maskT (t : IVec S256x1024 32) : IVec S256x1024 1 :=
  Host.reduce IntOp.andi
    (andi (cmpi .sge (colT t) (broadcastInDim S256x1024x1 ![] bcast_S_S256x1024x1 (constantI S_ 32 0#32)))
      (cmpi .sle (colT t) (broadcastInDim S256x1024x1 ![0, 1, 2] bcast_S1x1x1_S256x1024x1_0_1_2
        (broadcastInDim S1x1x1 ![2] bcast_S1_S1x1x1_2 (constantI S1 32 99999#32)))))
    (constantI S_ 1 1#1) reducesTo_S256x1024x1_S256x1024_d2 h_S_
def rowsT (E : FVec F S100000x1000 .f32) (t : IVec S256x1024 32) : FVec F S256x1024x1000 .f32 :=
  Host.gather gather_S100000x1000_S256x1024x1_S256x1024x1000_2_0_n_n_0_2_11000 E (colT t)
def takeT (E : FVec F S100000x1000 .f32) (t : IVec S256x1024 32) : FVec F S256x1024x1000 .f32 :=
  select (broadcastInDim S256x1024x1000 ![0, 1] bcast_S256x1024_S256x1024x1000_0_1 (maskT t)) (rowsT E t)
    (broadcastInDim S256x1024x1000 ![] bcast_S_S256x1024x1000 (constant S_ .f32 0x7FC00000#32))

/-! ## The rotated head and the tail's halves -/

/-- The relation's phase: its embedding times the constant π / range. -/
def phase (Rr : FVec F S256x500 .f32) : FVec F S256x500 .f32 :=
  mulf Rr (broadcastInDim S256x500 ![] bcast_S_S256x500 (constant S_ .f32 0x430ECCB7#32))
def headRe (H : FVec F S256x1000 .f32) : FVec F S256x500 .f32 := extractStridedSlice S256x500 ![0, 0] H slices_S256x1000_S256x500_0_0
def headIm (H : FVec F S256x1000 .f32) : FVec F S256x500 .f32 := extractStridedSlice S256x500 ![0, 500] H slices_S256x1000_S256x500_0_500
/-- The real part of head · relation. -/
def rotRe (H : FVec F S256x1000 .f32) (Rr : FVec F S256x500 .f32) : FVec F S256x500 .f32 :=
  subf (mulf (headRe H) (Host.cos (phase Rr))) (mulf (headIm H) (Host.sin (phase Rr)))
/-- The imaginary part of head · relation. -/
def rotIm (H : FVec F S256x1000 .f32) (Rr : FVec F S256x500 .f32) : FVec F S256x500 .f32 :=
  addf (mulf (headRe H) (Host.sin (phase Rr))) (mulf (headIm H) (Host.cos (phase Rr)))
def tailRe (T : FVec F S256x1024x1000 .f32) : FVec F S256x1024x500 .f32 :=
  extractStridedSlice S256x1024x500 ![0, 0, 0] T slices_S256x1024x1000_S256x1024x500_0_0_0
def tailIm (T : FVec F S256x1024x1000 .f32) : FVec F S256x1024x500 .f32 :=
  extractStridedSlice S256x1024x500 ![0, 0, 500] T slices_S256x1024x1000_S256x1024x500_0_0_500

/-! ## The four window arrays at region entry -/

variable (m : (ℓ : Loc nD τ sig) → Buf (Elt F) ℓ)

set_option maxHeartbeats 4000000 in
/-- Window 0's array: the real part of the rotated head. -/
theorem V_rotRe (c : Dev nD) : (V m c main_v10 : (⟨S256x500, .f32⟩ : BufTy).Contents (Elt F))
    = rotRe (takeH (m ((c : Thread nD τ).loc main_arg0)) (m ((c : Thread nD τ).loc main_arg2)))
        (takeR (m ((c : Thread nD τ).loc main_arg1)) (m ((c : Thread nD τ).loc main_arg3))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [Cert.LibTRef.ofBuf_toBuf]
  simp only [TRef.toBuf, TRef.ofBuf, cast_eq]
  rfl

set_option maxHeartbeats 4000000 in
/-- Window 1's array: the imaginary part of the rotated head. -/
theorem V_rotIm (c : Dev nD) : (V m c main_v13 : (⟨S256x500, .f32⟩ : BufTy).Contents (Elt F))
    = rotIm (takeH (m ((c : Thread nD τ).loc main_arg0)) (m ((c : Thread nD τ).loc main_arg2)))
        (takeR (m ((c : Thread nD τ).loc main_arg1)) (m ((c : Thread nD τ).loc main_arg3))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [Cert.LibTRef.ofBuf_toBuf]
  simp only [TRef.toBuf, TRef.ofBuf, cast_eq]
  rfl

set_option maxHeartbeats 4000000 in
/-- Window 2's array: the real half of the candidate tails. -/
theorem V_tailRe (c : Dev nD) : (V m c main_v15 : (⟨S256x1024x500, .f32⟩ : BufTy).Contents (Elt F))
    = tailRe (takeT (m ((c : Thread nD τ).loc main_arg0)) (m ((c : Thread nD τ).loc main_arg4))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [Cert.LibTRef.ofBuf_toBuf]
  simp only [TRef.toBuf, TRef.ofBuf, cast_eq]
  rfl

set_option maxHeartbeats 4000000 in
/-- Window 3's array: the imaginary half of the candidate tails. -/
theorem V_tailIm (c : Dev nD) : (V m c main_v16 : (⟨S256x1024x500, .f32⟩ : BufTy).Contents (Elt F))
    = tailIm (takeT (m ((c : Thread nD τ).loc main_arg0)) (m ((c : Thread nD τ).loc main_arg4))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  simp only [Cert.LibTRef.ofBuf_toBuf]
  simp only [TRef.toBuf, TRef.ofBuf, cast_eq]
  rfl

end Cert.KernelIdeal.HostSide

end
-- ==== Proof.IndexWords.lean ====
/-
  Index words. A NumPy-style index `x` into an axis of extent `N` is valid when `-N ≤ x < N`; a negative one counts from
  the end, so the row it names is `x + N` when `x < 0` and `x` otherwise, and that row number lies in `[0, N - 1]`.
  The take-with-fill idiom tests exactly this range of the wrapped index, and keeps the gathered row where the test
  passes. Here: the wrapped index of a valid index passes the test (as 32-bit two's-complement words), a select whose
  mask is everywhere one is its first branch, and a conjunction over an axis of a mask that is everywhere one is one.
-/
import Idealize.ShloMosaic.PureOps
import Idealize.ShloMosaic.Lib.ReduceAll

namespace Cert.IndexWords

open Idealize.ShloMosaic

theorem ofBool_eq_one (b : Bool) : BitVec.ofBool b = 1#1 ↔ b = true := by cases b <;> decide

/-- A signed comparison of words that came out one, read on the integers the words denote. -/
theorem sge_one {x c : BitVec 32} (h : IntOp.cmpi .sge x c = 1#1) : c.toInt ≤ x.toInt := by
  unfold IntOp.cmpi at h
  rw [ofBool_eq_one] at h
  simpa only [BitVec.sle, decide_eq_true_eq] using h

theorem slt_one {x c : BitVec 32} (h : IntOp.cmpi .slt x c = 1#1) : x.toInt < c.toInt := by
  unfold IntOp.cmpi at h
  rw [ofBool_eq_one] at h
  simpa only [BitVec.slt, decide_eq_true_eq] using h

/-- THE WRAPPED INDEX IS IN RANGE. For an extent `N` (small enough that `x + N` does not wrap) and a word `x` with
    `-N ≤ x < N`: the word `x + N` if `x < 0`, else `x`, is at least `0` and at most `N - 1`, so the conjunction of the two
    signed tests is one. `nw`, `lw` are the words of `N` and `N - 1`. -/
theorem wrapped_in_range (N : Nat) (hN : 0 < N) (hN' : N < 2 ^ 30) (x nw lw : BitVec 32)
    (hnw : nw.toInt = N) (hlw : lw.toInt = (N : Int) - 1)
    (hlo : -(N : Int) ≤ x.toInt) (hhi : x.toInt < N) :
    IntOp.andi
      (IntOp.cmpi .sge (Scalar.select (IntOp.cmpi .slt x 0#32) (IntOp.addi x nw) x) 0#32)
      (IntOp.cmpi .sle (Scalar.select (IntOp.cmpi .slt x 0#32) (IntOp.addi x nw) x) lw) = 1#1 := by
  have h0 : (0#32 : BitVec 32).toInt = 0 := by decide
  by_cases hneg : x.toInt < 0
  · have hs : IntOp.cmpi .slt x 0#32 = 1#1 := by
      unfold IntOp.cmpi; rw [ofBool_eq_one]; simp only [BitVec.slt, decide_eq_true_eq, h0]; exact hneg
    have hadd : (IntOp.addi x nw).toInt = x.toInt + N := by
      unfold IntOp.addi
      rw [BitVec.toInt_add, hnw]
      have e' : ((2 : Nat) ^ 32 : Nat) = 4294967296 := by decide
      have e30 : ((2 : Nat) ^ 30 : Nat) = 1073741824 := by decide
      rw [e30] at hN'
      rw [e']
      unfold Int.bmod
      dsimp only
      split <;> omega
    rw [hs]
    unfold Scalar.select
    rw [if_pos (show (1#1 : BitVec 1) = 1 from rfl)]
    have a1 : (0#32 : BitVec 32).sle (IntOp.addi x nw) = true := by
      simp only [BitVec.sle, decide_eq_true_eq, h0, hadd]; omega
    have a2 : (IntOp.addi x nw).sle lw = true := by
      simp only [BitVec.sle, decide_eq_true_eq, hlw, hadd]; omega
    have c1 : IntOp.cmpi .sge (IntOp.addi x nw) 0#32 = 1#1 := by
      show BitVec.ofBool ((0#32 : BitVec 32).sle (IntOp.addi x nw)) = 1#1
      rw [a1]; rfl
    have c2 : IntOp.cmpi .sle (IntOp.addi x nw) lw = 1#1 := by
      show BitVec.ofBool ((IntOp.addi x nw).sle lw) = 1#1
      rw [a2]; rfl
    rw [c1, c2]; rfl
  · have hs : IntOp.cmpi .slt x 0#32 = 0#1 := by
      have : x.slt 0#32 = false := by simp only [BitVec.slt, h0, decide_eq_false_iff_not]; exact hneg
      show BitVec.ofBool (x.slt 0#32) = 0#1
      rw [this]; rfl
    rw [hs]
    unfold Scalar.select
    rw [if_neg (show ¬ (0#1 : BitVec 1) = 1 by decide)]
    have a1 : (0#32 : BitVec 32).sle x = true := by
      simp only [BitVec.sle, decide_eq_true_eq, h0]; omega
    have a2 : x.sle lw = true := by
      simp only [BitVec.sle, decide_eq_true_eq, hlw]; omega
    have c1 : IntOp.cmpi .sge x 0#32 = 1#1 := by
      show BitVec.ofBool ((0#32 : BitVec 32).sle x) = 1#1
      rw [a1]; rfl
    have c2 : IntOp.cmpi .sle x lw = 1#1 := by
      show BitVec.ofBool (x.sle lw) = 1#1
      rw [a2]; rfl
    rw [c1, c2]; rfl

/-- A select under a mask that is one everywhere is its first branch. -/
theorem select_of_all_one {s : Shape} {α : Type} (c : IVec s 1) (a b : s.Idx → α) (hc : ∀ i, c i = 1#1) :
    select c a b = a := by
  funext i
  unfold select Scalar.select
  rw [hc i, if_pos (show (1#1 : BitVec 1) = 1 from rfl)]

/-- A left fold by `and` from one over words that are all one is one. -/
theorem foldl_andi_all_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_all_one f hf l _ (by rw [h, hf a]; decide)

/-- A reduction by `and`, from the initial value one, of a mask that is one everywhere is one at every index. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl]
  exact foldl_andi_all_one (fun n => x n) hx _ _ hi

end Cert.IndexWords
-- ==== Proof.TakeInRange.lean ====
/-
  With every index valid, take-with-fill is the plain lookup. The mask of a lookup tests the wrapped index against
  `[0, N - 1]`; a valid index (`-N ≤ x < N`) wraps into that range, so the mask is one at every row, the select keeps
  the gathered row everywhere, and the fill value is never read.
-/
import proofs.«418616_j70866960384070_1_alg».proof.Proof.HostSide
import proofs.«418616_j70866960384070_1_alg».proof.Proof.IndexWords

set_option maxRecDepth 16384

noncomputable section

namespace Cert.KernelIdeal.HostSide

open Cert.KernelIdeal Cert.KernelIdeal.Gen Idealize.ShloMosaic Cert.IndexWords

variable {F : FTy → Type} [FloatOps F]

theorem toInt_neg100000 : (4294867296#32 : BitVec 32).toInt = -((100000 : Nat) : Int) := by decide
theorem toInt_neg1000 : (4294966296#32 : BitVec 32).toInt = -((1000 : Nat) : Int) := by decide

/-- The wrapped index of a valid index into 100000 rows passes the range test. -/
theorem in_range_100000 (x : BitVec 32) (hx : IntOp.cmpi .sge x 4294867296#32 = 1#1 ∧ IntOp.cmpi .slt x 100000#32 = 1#1) :
    IntOp.andi
      (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 :=
  wrapped_in_range 100000 (by decide) (by decide) x 100000#32 99999#32 (by decide) (by decide)
    (by have := sge_one hx.1; rw [toInt_neg100000] at this; exact this)
    (by have := slt_one hx.2; have e : (100000#32 : BitVec 32).toInt = ((100000 : Nat) : Int) := by decide
        rw [e] at this; exact this)

/-- The wrapped index of a valid index into 1000 rows passes the range test. -/
theorem in_range_1000 (x : BitVec 32) (hx : IntOp.cmpi .sge x 4294966296#32 = 1#1 ∧ IntOp.cmpi .slt x 1000#32 = 1#1) :
    IntOp.andi
      (IntOp.cmpi .sge (Scalar.select (IntOp.cmpi .slt x 0#32) (IntOp.addi x 1000#32) x) 0#32)
      (IntOp.cmpi .sle (Scalar.select (IntOp.cmpi .slt x 0#32) (IntOp.addi x 1000#32) x) 999#32) = 1#1 :=
  wrapped_in_range 1000 (by decide) (by decide) x 1000#32 999#32 (by decide) (by decide)
    (by have := sge_one hx.1; rw [toInt_neg1000] at this; exact this)
    (by have := slt_one hx.2; have e : (1000#32 : BitVec 32).toInt = ((1000 : Nat) : Int) := by decide
        rw [e] at this; exact this)

/-- Every head lookup is in range. -/
theorem maskH_one (h : IVec S256 32)
    (hh : ∀ p : S256.Idx, IntOp.cmpi .sge (h p) 4294867296#32 = 1#1 ∧ IntOp.cmpi .slt (h p) 100000#32 = 1#1) (j : S256.Idx) :
    maskH h j = 1#1 := by
  unfold maskH
  refine reduce_andi_of_all _ _ _ _ (fun i => ?_) rfl j
  exact in_range_100000 _ (hh _)

/-- Every relation lookup is in range. -/
theorem maskR_one (r : IVec S256 32)
    (hr : ∀ p : S256.Idx, IntOp.cmpi .sge (r p) 4294966296#32 = 1#1 ∧ IntOp.cmpi .slt (r p) 1000#32 = 1#1) (j : S256.Idx) :
    maskR r j = 1#1 := by
  unfold maskR
  refine reduce_andi_of_all _ _ _ _ (fun i => ?_) rfl j
  exact in_range_1000 _ (hr _)

/-- Every tail lookup is in range. -/
theorem maskT_one (t : IVec S256x1024 32)
    (ht : ∀ p : S256x1024.Idx, IntOp.cmpi .sge (t p) 4294867296#32 = 1#1 ∧ IntOp.cmpi .slt (t p) 100000#32 = 1#1)
    (j : S256x1024.Idx) : maskT t j = 1#1 := by
  unfold maskT
  refine reduce_andi_of_all _ _ _ _ (fun i => ?_) rfl j
  exact in_range_100000 _ (ht _)

/-- The head rows: with valid indices the fill is never taken. -/
theorem takeH_eq (E : FVec F S100000x1000 .f32) (h : IVec S256 32)
    (hh : ∀ p : S256.Idx, IntOp.cmpi .sge (h p) 4294867296#32 = 1#1 ∧ IntOp.cmpi .slt (h p) 100000#32 = 1#1) :
    takeH E h = rowsH E h := by
  unfold takeH
  exact select_of_all_one _ _ _ (fun i => maskH_one h hh _)

/-- The relation rows: with valid indices the fill is never taken. -/
theorem takeR_eq (R : FVec F S1000x500 .f32) (r : IVec S256 32)
    (hr : ∀ p : S256.Idx, IntOp.cmpi .sge (r p) 4294966296#32 = 1#1 ∧ IntOp.cmpi .slt (r p) 1000#32 = 1#1) :
    takeR R r = rowsR R r := by
  unfold takeR
  exact select_of_all_one _ _ _ (fun i => maskR_one r hr _)

/-- The tail rows: with valid indices the fill is never taken. -/
theorem takeT_eq (E : FVec F S100000x1000 .f32) (t : IVec S256x1024 32)
    (ht : ∀ p : S256x1024.Idx, IntOp.cmpi .sge (t p) 4294867296#32 = 1#1 ∧ IntOp.cmpi .slt (t p) 100000#32 = 1#1) :
    takeT E t = rowsT E t := by
  unfold takeT
  exact select_of_all_one _ _ _ (fun i => maskT_one t ht _)

end Cert.KernelIdeal.HostSide

end
-- ==== Proof.Ranges.lean ====
/-
  The precondition, decoded. Beside the finiteness of the two float tables it says that every head index and every
  candidate-tail index `x` satisfies `-100000 ≤ x < 100000` and every relation index `-1000 ≤ x < 1000`: the valid
  NumPy-style indices into tables of 100000 and 1000 rows. Each range is printed as the conjunction over the whole index
  array (`jnp.all`) of two signed word comparisons, and the precondition is the conjunction of the five; a conjunction
  that is one has every conjunct one, at every index.
-/
import proofs.«418616_j70866960384070_1_alg».proof.Proof.Gen.Pre_finite_inputs
import Idealize.ShloMosaic.Lib.ReduceAll

namespace Cert.Ranges

open Idealize.ShloMosaic Cert.Pre_finite_inputs

/-- The scalar shape has one index. -/
instance : Subsingleton S_.Idx := ⟨fun _ _ => funext fun d => d.elim0⟩

/-- The one index of the scalar shape. -/
def i0 : S_.Idx := fun d => d.elim0

variable {F : FTy → Type} [FloatOps F]

/-- THE INDEX RANGES the precondition states, element by element, as the word comparisons it prints:
    `-100000 ≤ h[p] < 100000`, `-1000 ≤ r[p] < 1000`, `-100000 ≤ t[p] < 100000`. -/
theorem of_pre (e : FVec F S100000x1000 .f32) (rl : FVec F S1000x500 .f32) (h r : IVec S256 32) (t : IVec S256x1024 32)
    (hp : Cert.Pre_finite_inputs.fn (F := F) e rl h r t = fun _ => 1#1) :
    (∀ p : S256.Idx, IntOp.cmpi .sge (h p) 4294867296#32 = 1#1 ∧ IntOp.cmpi .slt (h p) 100000#32 = 1#1)
    ∧ (∀ p : S256.Idx, IntOp.cmpi .sge (r p) 4294966296#32 = 1#1 ∧ IntOp.cmpi .slt (r p) 1000#32 = 1#1)
    ∧ (∀ p : S256x1024.Idx, IntOp.cmpi .sge (t p) 4294867296#32 = 1#1 ∧ IntOp.cmpi .slt (t p) 100000#32 = 1#1) := by
  have e0 := congrFun hp i0
  dsimp only [Cert.Pre_finite_inputs.fn, Cert.Pre_finite_inputs.fn_part1] at e0
  unfold andi at e0
  obtain ⟨e1, ht⟩ := IntOp.andi_eq_one.1 e0
  obtain ⟨e2, hr⟩ := IntOp.andi_eq_one.1 e1
  obtain ⟨-, hh⟩ := IntOp.andi_eq_one.1 e2
  refine ⟨fun p => ?_, fun p => ?_, fun p => ?_⟩
  · exact IntOp.andi_eq_one.1 (Host.reduce_andi_all _ _ _ _ i0 hh p)
  · exact IntOp.andi_eq_one.1 (Host.reduce_andi_all _ _ _ _ i0 hr p)
  · exact IntOp.andi_eq_one.1 (Host.reduce_andi_all _ _ _ _ i0 ht p)

end Cert.Ranges
-- ==== Proof.Score.lean ====
/-
  The score, as one function of four arrays, over the extended reals. For a batch row `b` and a candidate `k`, with
  the rotated head (re, im) of row `b` and the candidate's tail (re, im), both complex vectors of dimension 500:
      score b k = 9 − Σ_d √((re_b,d − tre_b,k,d)² + (im_b,d − tim_b,k,d)²),
  the margin minus the sum over the embedding dimension of the moduli of the complex differences.
-/
import Idealize.ShloMosaic.PureOps.Ideal
import Idealize.ShloMosaic.Lib.ValueIdx

noncomputable section

open scoped BigOperators

namespace Cert.Score

open Idealize.ShloMosaic Idealize.ShloMosaic.ValueIdx

/-- The modulus of the difference of the complex numbers `a + b·i` and `c + d·i`. -/
def modulus (a b c d : EReal) : EReal := Ideal.sqrt ((a - c) * (a - c) + (b - d) * (b - d))

/-- The margin: the real number the float word of 9.0 denotes. -/
abbrev margin : EReal := Ideal.ofBits .f32 0x41100000#32

/-- The score at row `p` and candidate `q`. -/
def at_ (A B : (⟨2, ![256, 500]⟩ : Shape).Idx → EReal) (C D : (⟨3, ![256, 1024, 500]⟩ : Shape).Idx → EReal)
    (p : Fin 256) (q : Fin 1024) : EReal :=
  margin - ∑ k : Fin 500, modulus (A (ix2 p k)) (B (ix2 p k)) (C (ix3 p q k)) (D (ix3 p q k))

/-- The whole score array. -/
def score (A B : (⟨2, ![256, 500]⟩ : Shape).Idx → EReal) (C D : (⟨3, ![256, 1024, 500]⟩ : Shape).Idx → EReal) :
    (⟨2, ![256, 1024]⟩ : Shape).Idx → EReal :=
  fun i => at_ A B C D (i 0) (i 1)

end Cert.Score

end
-- ==== Proof.RefScore.lean ====
/-
  The reference computes the score. Its last stages subtract from the margin the sum over the embedding dimension
  (from the initial value zero) of the square roots of the summed squares of the two differences — the rotated head,
  laid along every candidate, minus the candidate's tail — so the result at (b, k) is the score of the four arrays it
  formed before: the rotated head's two parts and the tail's two halves.
-/
import proofs.«418616_j70866960384070_1_alg».proof.Proof.Gen.ReferenceIdeal.Read
import proofs.«418616_j70866960384070_1_alg».proof.Proof.Score

noncomputable section

open scoped BigOperators

namespace Cert.ReferenceIdeal.RefScore

open Cert.ReferenceIdeal Cert.ReferenceIdeal.Read Idealize.ShloMosaic Idealize.ShloMosaic.ValueIdx

/-- The reference's result is the score of its rotated head and its tail halves. -/
theorem result_eq_score (x0 : (⟨S100000x1000, .f32⟩ : BufTy).Contents (Elt Ideal)) (x1 : (⟨S1000x500, .f32⟩ : BufTy).Contents (Elt Ideal))
    (x2 x3 : (⟨S256, .i32⟩ : BufTy).Contents (Elt Ideal)) (x4 : (⟨S256x1024, .i32⟩ : BufTy).Contents (Elt Ideal)) :
    val_main_v47 (F := Ideal) x0 x1 x2 x3 x4
      = Cert.Score.score (val_main_v22 (F := Ideal) x0 x1 x2 x3) (val_main_v25 (F := Ideal) x0 x1 x2 x3)
          (val_main_v33 (F := Ideal) x0 x4) (val_main_v34 (F := Ideal) x0 x4) := by
  funext i
  rw [val_main_v47_apply, val_main_v46_apply, val_main_cst_6_apply, val_main_v45_apply, val_main_cst_5_apply]
  unfold Cert.Score.score Cert.Score.at_
  rw [Ideal.subf_def, Ideal.ofBits_def, Ideal.ofBits_def, Ideal.ofBits_zero_f32, zero_add]
  refine congrArg (Cert.Score.margin - ·) (Finset.sum_congr rfl fun k _ => ?_)
  have e1 : idx_main_v35 (idx_main_v36 (idx_main_v45 i k)) = ix2 (i 0) k := by
    funext a; match a with | ⟨0, _⟩ => rfl | ⟨1, _⟩ => rfl
  have e2 : idx_main_v38 (idx_main_v39 (idx_main_v45 i k)) = ix2 (i 0) k := by
    funext a; match a with | ⟨0, _⟩ => rfl | ⟨1, _⟩ => rfl
  have e3 : idx_main_v45 i k = ix3 (i 0) (i 1) k := by
    funext a; match a with | ⟨0, _⟩ => rfl | ⟨1, _⟩ => rfl | ⟨2, _⟩ => rfl
  simp only [val_main_v44_apply, val_main_v43_apply, val_main_v41_apply, val_main_v42_apply, val_main_v37_apply,
    val_main_v40_apply, val_main_v36_apply, val_main_v39_apply, val_main_v35_apply, val_main_v38_apply, e1, e2]
  rw [e3]
  rfl

end Cert.ReferenceIdeal.RefScore

end
-- ==== Proof.KernelBlocks.lean ====
/-
  The kernel's output array is the score of the four arrays its windows stage. The grid is 32 × 4: point (i, j)
  stages rows 8i..8i+7 of the rotated head's two parts (all 500 columns), the same rows and candidates 256j..256j+255
  of the tail's two halves, and writes rows 8i..8i+7, candidates 256j..256j+255 of the output. Its body lays each head
  row along the 256 candidates, takes the modulus of the complex difference with the tail at every embedding
  coordinate, sums the 500 moduli along the lanes and subtracts the sum from the margin: at a block index (p, q) that
  is the score formula over the blocks, and a block's element (p, ·) is the array's element (8i + p, ·). The 128 output
  blocks tile the 256 × 1024 array, so after the run the array holds the score everywhere.
-/
import proofs.«418616_j70866960384070_1_alg».proof.Proof.Gen.KernelIdeal.Value
import proofs.«418616_j70866960384070_1_alg».proof.Proof.Score
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## The body at a block index -/

/-- A head block laid along the candidates: entry (p, q, k) of the broadcast is entry (p, k) of the block. -/
theorem head_along (P : FVec Ideal S8x500 .f32) (p : Fin 8) (q : Fin 256) (k : Fin 500) :
    broadcastTo S8x256x500 (shapeCast S8x1x500 (shapeCast S8x500 P shapeCasts_S8x500_S8x500) shapeCasts_S8x500_S8x1x500)
      broadcasts_S8x1x500_S8x256x500 (ix3 p q k) = P (ix2 p k) := by
  refine (broadcastTo_apply _ broadcasts_S8x1x500_S8x256x500 (ix3 p q k) (ix3 p (0 : Fin 1) k) (fun a => ?_)).trans ?_
  · match a with
    | ⟨0, _⟩ => show p.val = if (8 : Nat) = 1 then 0 else p.val; rw [if_neg (by decide)]
    | ⟨1, _⟩ => show 0 = if (1 : Nat) = 1 then 0 else q.val; rw [if_pos rfl]
    | ⟨2, _⟩ => show k.val = if (500 : Nat) = 1 then 0 else k.val; rw [if_neg (by decide)]
  refine (shapeCast_apply _ shapeCasts_S8x500_S8x1x500 (ix3 p (0 : Fin 1) k) (ix2 p k) ?_).trans ?_
  · rw [Shape.rowMajor_val_two, Shape.rowMajor_val_three]
    show p.val * 500 + k.val = (p.val * 1 + 0) * 500 + k.val
    omega
  exact congrFun (shapeCast_self P shapeCasts_S8x500_S8x500) (ix2 p k)

/-- THE BODY'S BLOCK at (p, q): the margin minus the sum over the 500 lanes of the moduli of the differences between
    head row p and the tail at (p, q). `P0`, `P2` are the head's real and imaginary blocks, `P1`, `P3` the tail's. -/
theorem block_score (P0 P2 : FVec Ideal S8x500 .f32) (P1 P3 : FVec Ideal S8x256x500 .f32) (p : Fin 8) (q : Fin 256) :
    E4 (F := Ideal) P0 P1 P2 P3 (ix2 p q)
      = Cert.Score.margin - ∑ k : Fin 500, Cert.Score.modulus (P0 (ix2 p k)) (P2 (ix2 p k)) (P1 (ix3 p q k)) (P3 (ix3 p q k)) := by
  refine congrArg (Cert.Score.margin - ·) ?_
  refine (Ideal.multiReduction_add_single _ 0x00000000#32 reduces_S8x256x500_S8x256 (.inl rfl) rfl (ix4_0 (ix2 p q))).trans ?_
  refine Finset.sum_congr (s₁ := (Finset.univ : Finset (Fin 500))) rfl fun (k : Fin 500) _ => ?_
  have hj : reduces_S8x256x500_S8x256.lift (ix4_0 (ix2 p q)) k = ix3 p q k := by
    funext a; apply Fin.ext
    match a with | ⟨0, _⟩ => rfl | ⟨1, _⟩ => rfl | ⟨2, _⟩ => rfl
  rw [hj]
  show Ideal.sqrt ((_ - _) * (_ - _) + (_ - _) * (_ - _)) = _
  rw [head_along P0 p q k, head_along P2 p q k, shapeCast_self, shapeCast_self]
  rfl

/-! ## From blocks to the array -/

variable (m : (ℓ : Loc nD τ sig) → Buf (Elt Ideal) ℓ)

/-- The score of the four window arrays as the region finds them. -/
abbrev entryScore (c : Dev nD) : (⟨S256x1024, .f32⟩ : BufTy).Contents (Elt Ideal) :=
  Cert.Score.score (V m c main_v10) (V m c main_v13) (V m c main_v15) (V m c main_v16)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 128 grid points: the head windows follow the output's row block and stay at
    column block 0; the tail windows follow the output's row and candidate blocks and stay at lane block 0. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 3) = win0_4.index t (0 : Fin 2) ∧ win0_2.index t (1 : Fin 3) = win0_4.index t (1 : Fin 2)
    ∧ win0_2.index t (2 : Fin 3) = 0
    ∧ win0_3.index t (0 : Fin 3) = win0_4.index t (0 : Fin 2) ∧ win0_3.index t (1 : Fin 3) = win0_4.index t (1 : Fin 2)
    ∧ win0_3.index t (2 : Fin 3) = 0 :=
  (by decide +kernel : ∀ t : Fin grid0.N, _)

/-- Every block of the output is some point's. -/
theorem idx_onto : ∀ (q0 : Fin 32) (q1 : Fin 4), ∃ t : Fin cfg0.N, win0_4.index t = ![q0.val, q1.val] :=
  (by decide +kernel : ∀ (q0 : Fin 32) (q1 : Fin 4), ∃ t : Fin grid0.N, win0_4.index t = ![q0.val, q1.val])

set_option maxHeartbeats 2000000 in
/-- WHAT POINT `t` WRITES BACK is block `t` of the score of the region-entry arrays. -/
theorem flushed_score (c : Dev nD) (t : Fin cfg0.N) :
    (dats m 0 c).flushed 4 t = ((cfg0.win 4).blk t).view.read (Elt Ideal) (entryScore m c) := by
  rw [Value.flushed4]
  unfold out0_4
  simp only [View.ld_unit_zero (S := S8x500) hz2, View.ld_unit_zero (S := S8x256x500) hz3]
  obtain ⟨e00, e01, e10, e11, e20, e21, e22, e30, e31, e32⟩ := idx_facts t
  funext j
  obtain ⟨p, q, rfl⟩ : ∃ (p : Fin 8) (q : Fin 256), j = ix2 p q := ⟨j 0, j 1, eq_ix2 j⟩
  show View.canon [⟨r0_2, k0_pay1 (iblk m c 0 t) (iblk m c 1 t) (iblk m c 2 t) (iblk m c 3 t)⟩] (ix2 p q)
    = entryScore m c (((cfg0.win 4).blk t).view.emb (ix2 p q))
  refine (Value.canon4_eq (F := Ideal) (iblk m c 0 t) (iblk m c 2 t) (iblk m c 1 t) (iblk m c 3 t) (ix2 p q)).trans ?_
  refine (block_score (iblk m c 0 t) (iblk m c 1 t) (iblk m c 2 t) (iblk m c 3 t) p q).trans ?_
  refine congrArg (Cert.Score.margin - ·) (Finset.sum_congr rfl fun (k : Fin 500) _ => ?_)
  have h0 : iblk m c 0 t (ix2 p k) = V m c main_v10 (ix2 ((((cfg0.win 4).blk t).view.emb (ix2 p q)) 0) k) := by
    show V m c main_v10 (((cfg0.win 0).blk t).view.emb (ix2 p k)) = _
    refine congrArg (V m c main_v10) (funext fun a => Fin.ext ?_)
    match a with
    | ⟨0, _⟩ => show win0_0.index t (0 : Fin 2) * 8 + 1 * p.val = win0_4.index t (0 : Fin 2) * 8 + 1 * p.val; omega
    | ⟨1, _⟩ => show win0_0.index t (1 : Fin 2) * 500 + 1 * k.val = k.val; omega
  have h1 : iblk m c 1 t (ix2 p k) = V m c main_v13 (ix2 ((((cfg0.win 4).blk t).view.emb (ix2 p q)) 0) k) := by
    show V m c main_v13 (((cfg0.win 1).blk t).view.emb (ix2 p k)) = _
    refine congrArg (V m c main_v13) (funext fun a => Fin.ext ?_)
    match a with
    | ⟨0, _⟩ => show win0_1.index t (0 : Fin 2) * 8 + 1 * p.val = win0_4.index t (0 : Fin 2) * 8 + 1 * p.val; omega
    | ⟨1, _⟩ => show win0_1.index t (1 : Fin 2) * 500 + 1 * k.val = k.val; omega
  have h2 : iblk m c 2 t (ix3 p q k) = V m c main_v15 (ix3 ((((cfg0.win 4).blk t).view.emb (ix2 p q)) 0)
      ((((cfg0.win 4).blk t).view.emb (ix2 p q)) 1) k) := by
    show V m c main_v15 (((cfg0.win 2).blk t).view.emb (ix3 p q k)) = _
    refine congrArg (V m c main_v15) (funext fun a => Fin.ext ?_)
    match a with
    | ⟨0, _⟩ => show win0_2.index t (0 : Fin 3) * 8 + 1 * p.val = win0_4.index t (0 : Fin 2) * 8 + 1 * p.val; omega
    | ⟨1, _⟩ => show win0_2.index t (1 : Fin 3) * 256 + 1 * q.val = win0_4.index t (1 : Fin 2) * 256 + 1 * q.val; omega
    | ⟨2, _⟩ => show win0_2.index t (2 : Fin 3) * 500 + 1 * k.val = k.val; omega
  have h3 : iblk m c 3 t (ix3 p q k) = V m c main_v16 (ix3 ((((cfg0.win 4).blk t).view.emb (ix2 p q)) 0)
      ((((cfg0.win 4).blk t).view.emb (ix2 p q)) 1) k) := by
    show V m c main_v16 (((cfg0.win 3).blk t).view.emb (ix3 p q k)) = _
    refine congrArg (V m c main_v16) (funext fun a => Fin.ext ?_)
    match a with
    | ⟨0, _⟩ => show win0_3.index t (0 : Fin 3) * 8 + 1 * p.val = win0_4.index t (0 : Fin 2) * 8 + 1 * p.val; omega
    | ⟨1, _⟩ => show win0_3.index t (1 : Fin 3) * 256 + 1 * q.val = win0_4.index t (1 : Fin 2) * 256 + 1 * q.val; omega
    | ⟨2, _⟩ => show win0_3.index t (2 : Fin 3) * 500 + 1 * k.val = k.val; omega
  rw [h0, h1, h2, h3]

/-- An index of the output is in point `t`'s block iff each coordinate is in the block's range on its axis. -/
theorem mem_blk (t : Fin cfg0.N) (i : S256x1024.Idx) :
    i ∈ ((cfg0.win 4).blk t).view.set ↔ ∀ a : Fin 2, win0_4.index t a * S8x256.size a ≤ (i a).val
      ∧ (i a).val < win0_4.index t a * S8x256.size a + S8x256.size a := by
  show i ∈ ((View.whole main_v17).slice (win0_4.rect t)).set ↔ _
  rw [View.set_slice_whole, Rect.mem_set_unit]
  exact Iff.rfl

/-- The output's blocks cover it: row r, candidate k is in the block of row block r / 8, candidate block k / 256. -/
theorem covered (i : S256x1024.Idx) :
    ∃ t : Fin cfg0.N, (cfg0.win 4).flush t = true ∧ i ∈ ((cfg0.win 4).blk t).view.set := by
  have hi0 : (i 0).val < 256 := (i 0).isLt
  have hi1 : (i 1).val < 1024 := (i 1).isLt
  obtain ⟨t, ht⟩ := idx_onto ⟨(i 0).val / 8, by omega⟩ ⟨(i 1).val / 256, by omega⟩
  have q0 : win0_4.index t (0 : Fin 2) = (i 0).val / 8 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 256 ≤ (i 1).val ∧ (i 1).val < win0_4.index t (1 : Fin 2) * 256 + 256; omega

/-- THE OUTPUT ARRAY after the run is the score of the four region-entry arrays. -/
theorem final (c : Dev nD) : (dats m 0 c).arrAt 4 cfg0.N = entryScore m c :=
  (dats m 0 c).arrAt_eq_of_cover 4 (entryScore m c) (fun t _ => flushed_score m c t) covered

end Cert.KernelIdeal.Blocks

end
-- ==== Proof.Bridge.lean ====
/-
  The two programs meet. The kernel's host code and the reference gather the same rows (the same wrapped indices into
  the same tables), rotate the head by the same formula and cut the tail into the same halves; the only difference is
  the kernel's fill of out-of-range lookups, which the precondition rules out. So the four arrays the kernel's windows
  stage are the reference's four intermediate arrays, and the kernel's output — their score, block by block — is the
  reference's result, which is their score too.
-/
import proofs.«418616_j70866960384070_1_alg».proof.Defs
import proofs.«418616_j70866960384070_1_alg».proof.Proof.TakeInRange
import proofs.«418616_j70866960384070_1_alg».proof.Proof.Ranges
import proofs.«418616_j70866960384070_1_alg».proof.Proof.RefScore
import proofs.«418616_j70866960384070_1_alg».proof.Proof.KernelBlocks

set_option maxRecDepth 16384

noncomputable section

namespace Cert.Bridge

open Idealize.ShloMosaic Idealize.ShloMosaic.TcCoe Idealize.SL.Sem
open Cert.KernelIdeal Cert.KernelIdeal.Gen Cert.KernelIdeal.HostSide
open Cert.ReferenceIdeal.Read (val_main_v6 val_main_v17 val_main_v32 val_main_v22 val_main_v25 val_main_v33 val_main_v34 val_main_v47)

/-! ## The same lookups, the same rotation -/

/-- The kernel's gathered head rows are the reference's. -/
theorem rowsH_eq (E : FVec Ideal S100000x1000 .f32) (h : IVec S256 32) : rowsH E h = val_main_v17 (F := Ideal) E h := rfl
/-- The kernel's gathered relation rows are the reference's. -/
theorem rowsR_eq (R : FVec Ideal S1000x500 .f32) (r : IVec S256 32) : rowsR R r = val_main_v6 (F := Ideal) R r := rfl
/-- The kernel's gathered tail rows are the reference's. -/
theorem rowsT_eq (E : FVec Ideal S100000x1000 .f32) (t : IVec S256x1024 32) : rowsT E t = val_main_v32 (F := Ideal) E t := rfl

/-- The rotated head's real part, over the reference's rows, is the reference's. -/
theorem rotRe_eq (E : FVec Ideal S100000x1000 .f32) (R : FVec Ideal S1000x500 .f32) (h r : IVec S256 32) :
    rotRe (F := Ideal) (val_main_v17 (F := Ideal) E h) (val_main_v6 (F := Ideal) R r) = val_main_v22 (F := Ideal) E R h r := rfl
/-- The rotated head's imaginary part, over the reference's rows, is the reference's. -/
theorem rotIm_eq (E : FVec Ideal S100000x1000 .f32) (R : FVec Ideal S1000x500 .f32) (h r : IVec S256 32) :
    rotIm (F := Ideal) (val_main_v17 (F := Ideal) E h) (val_main_v6 (F := Ideal) R r) = val_main_v25 (F := Ideal) E R h r := rfl
/-- The tail's real half, over the reference's rows, is the reference's. -/
theorem tailRe_eq (E : FVec Ideal S100000x1000 .f32) (t : IVec S256x1024 32) :
    tailRe (F := Ideal) (val_main_v32 (F := Ideal) E t) = val_main_v33 (F := Ideal) E t := rfl
/-- The tail's imaginary half, over the reference's rows, is the reference's. -/
theorem tailIm_eq (E : FVec Ideal S100000x1000 .f32) (t : IVec S256x1024 32) :
    tailIm (F := Ideal) (val_main_v32 (F := Ideal) E t) = val_main_v34 (F := Ideal) E t := rfl

/-! ## The kernel's output is the reference's result -/

variable (m : (ℓ : Loc nD τ sig) → Buf (Elt Ideal) ℓ)

/-- Under the precondition, the kernel's output array after the run is the reference's result term of the same
    argument arrays. -/
theorem kernel_result (hpre : Cert.Pre_KernelIdeal m) (c : Dev nD) :
    (dats m 0 c).arrAt 4 cfg0.N
      = val_main_v47 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨hh, hr, ht⟩ := Cert.Ranges.of_pre _ _ _ _ _ (hpre c)
  rw [Cert.KernelIdeal.Blocks.final, Cert.ReferenceIdeal.RefScore.result_eq_score]
  unfold Cert.KernelIdeal.Blocks.entryScore
  rw [V_rotRe, V_rotIm, V_tailRe, V_tailIm, takeH_eq _ _ hh, takeR_eq _ _ hr, takeT_eq _ _ ht,
    rowsH_eq, rowsR_eq, rowsT_eq, rotRe_eq, rotIm_eq, tailRe_eq, tailIm_eq]

end Cert.Bridge

end
-- ==== Proof.lean ====
/-
  The certificate of the RotatE candidate-scoring kernel against its jnp reference, over the extended reals.

  Both programs look up the head rows, the relation rows and the candidate-tail rows of the embedding tables, rotate
  the head by the relation's phase (a complex multiplication with cos and sin of the phase), and score every candidate
  by the margin 9 minus the sum over the 500 complex coordinates of |head·relation − tail|. The kernel does the lookups
  and the rotation in host code and the scoring in one pallas_call over a 32 × 4 grid of 8-row, 256-candidate blocks;
  the reference does everything on whole arrays.

  The two differ in one thing: the kernel's lookups are take-with-fill, which replaces the row of an index outside
  `[-N, N)` by a fill value, where the reference's indexing clamps such an index. The precondition therefore says, beside
  the finiteness of the tables, that every index is a valid NumPy-style index into its table; then the fill is never
  taken (Proof/IndexWords, Proof/Ranges, Proof/TakeInRange), the four arrays the kernel's windows stage are the
  reference's four intermediate arrays (Proof/HostSide, Proof/Bridge), the kernel's output is their score block by block
  (Proof/KernelBlocks) and the reference's result is their score (Proof/RefScore), the same function (Proof/Score). The
  kernel's lane sum and the host's sum are both the sum of the 500 terms, and the host's initial value is zero; no other
  law of arithmetic is used, so finiteness of the floats is not needed.

  The frames are the generated ones (the reference's is its generated run with the result dropped); no operation was
  rewritten by the idealization, so `preserves` is trivial.
-/
import proofs.«418616_j70866960384070_1_alg».proof.Defs
import proofs.«418616_j70866960384070_1_alg».proof.Proof.Gen.Kernel
import proofs.«418616_j70866960384070_1_alg».proof.Proof.Gen.Kernel.Skeleton
import proofs.«418616_j70866960384070_1_alg».proof.Proof.Gen.Kernel.Launch
import proofs.«418616_j70866960384070_1_alg».proof.Proof.Gen.Kernel.Points
import proofs.«418616_j70866960384070_1_alg».proof.Proof.Gen.Kernel.Frame
import proofs.«418616_j70866960384070_1_alg».proof.Proof.Gen.KernelIdeal
import proofs.«418616_j70866960384070_1_alg».proof.Proof.Gen.KernelIdeal.Skeleton
import proofs.«418616_j70866960384070_1_alg».proof.Proof.Gen.KernelIdeal.Launch
import proofs.«418616_j70866960384070_1_alg».proof.Proof.Gen.KernelIdeal.Points
import proofs.«418616_j70866960384070_1_alg».proof.Proof.Gen.KernelIdeal.Frame
import proofs.«418616_j70866960384070_1_alg».proof.Proof.Gen.ReferenceIdeal
import proofs.«418616_j70866960384070_1_alg».proof.Proof.Gen.Pre_finite_inputs
import proofs.«418616_j70866960384070_1_alg».proof.Proof.Gen.KernelIdeal.Value
import proofs.«418616_j70866960384070_1_alg».proof.Proof.Gen.ReferenceIdeal.Run
import proofs.«418616_j70866960384070_1_alg».proof.Proof.Gen.ReferenceIdeal.Read
import proofs.«418616_j70866960384070_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both programs end with the reference's result
    term of the kernel's argument arrays: the kernel by its blocks (`Cert.Bridge.kernel_result`), the reference by its
    run, the arguments' agreement rewritten. -/
theorem algebraic : Cert.algebraic_KernelIdeal_ReferenceIdeal := by
  intro m ρ m' ρ' hpre hagree
  refine ⟨fun c => Cert.ReferenceIdeal.Read.val_main_v47 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Bridge.kernel_result m hpre c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
